-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x768 : Shape := ⟨3, ![2, 4096, 768]⟩
abbrev S768x768 : Shape := ⟨2, ![768, 768]⟩
abbrev S768 : Shape := ⟨1, ![768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S2x4096x768 .f32) (main_arg1 : FVec F S768x768 .f32) (main_arg2 : FVec F S768 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S2x4096x768 : Shape := ⟨3, ![2, 4096, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768, .f32⟩
  | .hbm, ⟨3, _⟩ => ⟨S8192x768, .f32⟩
  | .hbm, ⟨4, _⟩ => ⟨S1x768, .f32⟩
  | .hbm, ⟨5, _⟩ => ⟨S8192x768, .f32⟩
  | .hbm, ⟨6, _⟩ => ⟨S2x4096x768, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x4096x768_S8192x768 : S2x4096x768.ShapeCasts S8192x768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S8192x768_S2x4096x768 : S8192x768.ShapeCasts S2x4096x768
  dot_S2048x768_S768x768_S2048x768_1_1_0_0_n_n_wf : DotDims.WF S2048x768 S768x768 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S8192x768.size a
  hwx0_3 : ∀ i : grid0.Coords, EltTy.bits .f32 = 32 ∨ (Rect.block (s := S8192x768) S2048x768.size (cc0_transform_3 i) (hinb0_3 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x768 : Shape := ⟨3, ![2, 4096, 768]⟩
abbrev S768x768 : Shape := ⟨2, ![768, 768]⟩
abbrev S768 : Shape := ⟨1, ![768]⟩
abbrev S1x1x768 : Shape := ⟨3, ![1, 1, 768]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768, .f32⟩
  | .hbm, ⟨3, _⟩ => ⟨S2x4096x768, .f32⟩
  | .hbm, ⟨4, _⟩ => ⟨S1x1x768, .f32⟩
  | .hbm, ⟨5, _⟩ => ⟨S2x4096x768, .f32⟩
  | .hbm, ⟨6, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2x4096x768_0_1_2 : S1x1x768.BroadcastsInDim S2x4096x768 (![0, 1, 2] : Fin 3 → Fin S2x4096x768.rank)
  dot_S2x4096x768_S768x768_S2x4096x768_2_1_01_0_n_n_wf : DotDims.WF S2x4096x768 S768x768 S2x4096x768 [2] [1] [0, 1] [0] [] []

variable [Facts₀]

def dot_S2x4096x768_S768x768_S2x4096x768_2_1_01_0_n_n : DotDims S2x4096x768 S768x768 S2x4096x768 where
  lhsContracting := [2]
  rhsContracting := [1]
  lhsNonContracting := [0, 1]
  rhsNonContracting := [0]
  lhsBatch := []
  rhsBatch := []
  wf := dot_S2x4096x768_S768x768_S2x4096x768_2_1_01_0_n_n_wf

class Facts : Prop extends Facts₀ where

variable [Facts]
-- ==== Proof.Linear.lean ====
/-
  The dense layer y = x · Wᵀ + b on the extended reals, in its two layouts.

  The tokens of a [2, 4096, 768] batch are the 8192 rows of a [8192, 768] matrix: token (a, n) is row 4096·a + n,
  because both arrays hold the same words in row-major order. Row by row the layer is
      rows X W B (r, o)  = Σ_k X[r,k] · W[o,k] + B[0,o],
  and token by token
      layer x W b (a, n, o) = Σ_k x[a,n,k] · W[o,k] + b[o].
  When X is x re-laid as rows and B is b laid out as one row, re-laying `rows X W B` as a batch gives `layer x W b`:
  the same sum, term by term, so nothing about the extended reals beyond equality of the summands is used.
-/
import Idealize.ShloMosaic.PureOps.Ideal.Laws
import Idealize.ShloMosaic.Lib.ValueIdx
import Idealize.ShloMosaic.Lib.Pipeline.Value

noncomputable section

open scoped BigOperators

namespace Cert.Linear

open Idealize.ShloMosaic Idealize.ShloMosaic.ValueIdx

/-- The layer over rows: entry (r, o) is row r of X against row o of W, plus the bias row's entry o. -/
def rows (X : FVec Ideal ⟨2, ![8192, 768]⟩ .f32) (W : FVec Ideal ⟨2, ![768, 768]⟩ .f32) (B : FVec Ideal ⟨2, ![1, 768]⟩ .f32) :
    FVec Ideal ⟨2, ![8192, 768]⟩ .f32 :=
  fun i => (∑ k : Fin 768, X (ix2 (i 0) k) * W (ix2 (i 1) k)) + B (ix2 (0 : Fin 1) (i 1))

/-- The layer over tokens: entry (a, n, o) is token (a, n) against row o of W, plus the bias's entry o. -/
def layer (x : FVec Ideal ⟨3, ![2, 4096, 768]⟩ .f32) (W : FVec Ideal ⟨2, ![768, 768]⟩ .f32) (b : FVec Ideal ⟨1, ![768]⟩ .f32) :
    FVec Ideal ⟨3, ![2, 4096, 768]⟩ .f32 :=
  fun i => (∑ k : Fin 768, x (ix3 (i 0) (i 1) k) * W (ix2 (i 2) k)) + b (ix1 (i 2))

/-- Token (a, n) is row 4096·a + n. -/
def rowOf (a : Fin 2) (n : Fin 4096) : Fin 8192 := ⟨4096 * a.val + n.val, by have := a.isLt; have := n.isLt; omega⟩

/-- A batch re-laid as rows, read at row `rowOf a n`: the words are the same, in the same row-major order. -/
theorem asRows_apply (x : FVec Ideal ⟨3, ![2, 4096, 768]⟩ .f32)
    (h : (⟨3, ![2, 4096, 768]⟩ : Shape).ShapeCasts ⟨2, ![8192, 768]⟩) (a : Fin 2) (n : Fin 4096) (k : Fin 768) :
    shapeCast ⟨2, ![8192, 768]⟩ x h (ix2 (rowOf a n) k) = x (ix3 a n k) :=
  shapeCast_apply x h (ix2 (rowOf a n) k) (ix3 a n k) (by
    rw [Shape.rowMajor_val_three, Shape.rowMajor_val_two]
    show (a.val * 4096 + n.val) * 768 + k.val = (4096 * a.val + n.val) * 768 + k.val
    omega)

/-- Rows re-laid as a batch, read at token (a, n): row `rowOf a n`. -/
theorem asBatch_apply (Y : FVec Ideal ⟨2, ![8192, 768]⟩ .f32)
    (h : (⟨2, ![8192, 768]⟩ : Shape).ShapeCasts ⟨3, ![2, 4096, 768]⟩) (a : Fin 2) (n : Fin 4096) (o : Fin 768) :
    shapeCast ⟨3, ![2, 4096, 768]⟩ Y h (ix3 a n o) = Y (ix2 (rowOf a n) o) :=
  shapeCast_apply Y h (ix3 a n o) (ix2 (rowOf a n) o) (by
    rw [Shape.rowMajor_val_three, Shape.rowMajor_val_two]
    show (4096 * a.val + n.val) * 768 + o.val = (a.val * 4096 + n.val) * 768 + o.val
    omega)

/-- A vector laid out as one row: the row is the vector. -/
theorem asRow_apply (b : FVec Ideal ⟨1, ![768]⟩ .f32) (h : (⟨1, ![768]⟩ : Shape).ShapeCasts ⟨2, ![1, 768]⟩) (o : Fin 768) :
    shapeCast ⟨2, ![1, 768]⟩ b h (ix2 (0 : Fin 1) o) = b (ix1 o) :=
  shapeCast_apply b h (ix2 (0 : Fin 1) o) (ix1 o) (by
    rw [Shape.rowMajor_val_one, Shape.rowMajor_val_two]
    show o.val = 0 * 768 + o.val
    omega)

/-- THE TWO LAYOUTS AGREE: the row-by-row layer of the re-laid batch and the one-row bias, re-laid as a batch, is the
    token-by-token layer. -/
theorem asBatch_rows (x : FVec Ideal ⟨3, ![2, 4096, 768]⟩ .f32) (W : FVec Ideal ⟨2, ![768, 768]⟩ .f32) (b : FVec Ideal ⟨1, ![768]⟩ .f32)
    (h0 : (⟨3, ![2, 4096, 768]⟩ : Shape).ShapeCasts ⟨2, ![8192, 768]⟩) (h1 : (⟨1, ![768]⟩ : Shape).ShapeCasts ⟨2, ![1, 768]⟩)
    (h2 : (⟨2, ![8192, 768]⟩ : Shape).ShapeCasts ⟨3, ![2, 4096, 768]⟩) :
    shapeCast ⟨3, ![2, 4096, 768]⟩ (rows (shapeCast ⟨2, ![8192, 768]⟩ x h0) W (shapeCast ⟨2, ![1, 768]⟩ b h1)) h2 = layer x W b := by
  funext i
  obtain ⟨a, n, o, rfl⟩ : ∃ (a : Fin 2) (n : Fin 4096) (o : Fin 768), i = ix3 a n o := ⟨i 0, i 1, i 2, eq_ix3 i⟩
  rw [asBatch_apply]
  show (∑ k : Fin 768, shapeCast ⟨2, ![8192, 768]⟩ x h0 (ix2 (rowOf a n) k) * W (ix2 o k)) + shapeCast ⟨2, ![1, 768]⟩ b h1 (ix2 (0 : Fin 1) o)
    = (∑ k : Fin 768, x (ix3 a n k) * W (ix2 o k)) + b (ix1 o)
  rw [asRow_apply]
  simp only [asRows_apply]

end Cert.Linear

end
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KernelRows.lean ====
/-
  What the kernel's one region leaves in its output array.

  The region walks the 8192 rows in four blocks of 2048. At a block it holds 2048 rows of X, the whole weight W and the
  one-row bias B, multiplies the rows against W's rows into a zero accumulator and adds the bias row down the block:
  entry (p, q) of the block is Σ_k X[p,k] · W[q,k] + B[0,q]. A block's row p at grid point t is row 2048·t + p of the
  array, and its columns are the array's columns, so every block is a restriction of the one row-by-row function
  `Cert.Linear.rows X W B`; the four blocks tile the array, so the array ends holding that function.
-/
import proofs.«125455_g2078764171543_cont_8to1_1018_13_alg».proof.Proof.Gen.KernelIdeal.Frame
import proofs.«125455_g2078764171543_cont_8to1_1018_13_alg».proof.Proof.Linear
import proofs.«125455_g2078764171543_cont_8to1_1018_13_alg».proof.Proof.LibDotRows
import proofs.«125455_g2078764171543_cont_8to1_1018_13_alg».proof.Proof.LibRowBias
import Idealize.ShloMosaic.Lib.Pipeline.Value

noncomputable section

open scoped BigOperators

namespace Cert.KernelIdeal.RowsValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's arithmetic at an entry of the block -/

/-- Entry (p, q) of what the body stores: row p of the block of X against row q of W, plus the bias row's entry q. -/
theorem pay_apply (x0 : Vec Ideal S2048x768 .f32) (x1 : Vec Ideal S768x768 .f32) (x2 : Vec Ideal S1x768 .f32)
    (p : Fin 2048) (q : Fin 768) :
    k0_pay1 (F := Ideal) x0 x1 x2 (ix2 p q) = (∑ k : Fin 768, x0 (ix2 p k) * x1 (ix2 q k)) + x2 (ix2 (0 : Fin 1) q) := by
  unfold k0_pay1
  refine congrArg₂ (· + ·) ?_ ?_
  · refine (Cert.DotRows.matmul_zero_apply (M := 2048) (K := 768) (N := 768) none
      (shapeCast S2048x768 x0 shapeCasts_S2048x768_S2048x768) x1 p q).trans ?_
    rw [shapeCast_self]
  · refine (Cert.RowBias.rows_apply (M := 2048) (n := 768) (shapeCast S1x768 x2 shapeCasts_S1x768_S1x768)
      broadcasts_S1x768_S2048x768 p q).trans ?_
    rw [shapeCast_self]

/-! ## From blocks to the array -/

theorem origin2 : (![0, 0] : Fin 2 → Nat) = fun _ => 0 := funext fun a => by fin_cases a <;> rfl

/-- The printed index maps over the four grid points: the blocks of X and of the output move together down the rows,
    and every other block index is 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of the row-by-row layer of the arrays as the region finds them. -/
theorem flushed_rows (c : Dev nD) (t : Fin cfg0.N) :
    (dats m 0 c).flushed 3 t
      = ((cfg0.win 3).blk t).view.read (Elt Ideal) (Cert.Linear.rows (V m c main_v0) (V m c main_arg1) (V m c main_v1)) := by
  show (cfg0.win 3).cut (grid0.coords t) ((dats m 0 c).after 3 t) = _
  rw [after0_3]
  unfold out0_3
  rw [View.canon_unit_zero origin2]
  simp only [View.ld_unit_zero (S := S2048x768) origin2, View.ld_unit_zero (S := S768x768) origin2,
    View.ld_unit_zero (S := S1x768) origin2]
  obtain ⟨e0, e1, e2, e3, e4, e5, e6, e7⟩ := index_facts t
  funext j
  obtain ⟨p, q, rfl⟩ : ∃ (p : Fin 2048) (q : Fin 768), j = ix2 p q := ⟨j 0, j 1, eq_ix2 j⟩
  show k0_pay1 (F := Ideal) (iblk m c 0 t) (iblk m c 1 t) (iblk m c 2 t) (ix2 p q)
    = Cert.Linear.rows (V m c main_v0) (V m c main_arg1) (V m c main_v1) (((cfg0.win 3).blk t).view.emb (ix2 p q))
  refine (pay_apply (iblk m c 0 t) (iblk m c 1 t) (iblk m c 2 t) p q).trans ?_
  unfold Cert.Linear.rows
  have hp : p.val < 2048 := p.isLt
  have hq : q.val < 768 := q.isLt
  have hx : ∀ k : Fin 768, iblk m c 0 t (ix2 p k)
      = V m c main_v0 (ix2 (((cfg0.win 3).blk t).view.emb (ix2 p q) 0) k) := fun k => by
    show V m c main_v0 (((cfg0.win 0).blk t).view.emb (ix2 p k)) = _
    refine congrArg (V m c main_v0) (funext fun a => Fin.ext ?_)
    have hk : k.val < 768 := k.isLt
    match a with
    | ⟨0, _⟩ => show win0_0.index t (0 : Fin 2) * 2048 + 1 * p.val = win0_3.index t (0 : Fin 2) * 2048 + 1 * p.val; omega
    | ⟨1, _⟩ => show win0_0.index t (1 : Fin 2) * 768 + 1 * k.val = k.val; omega
  have hw : ∀ k : Fin 768, iblk m c 1 t (ix2 q k)
      = V m c main_arg1 (ix2 (((cfg0.win 3).blk t).view.emb (ix2 p q) 1) k) := fun k => by
    show V m c main_arg1 (((cfg0.win 1).blk t).view.emb (ix2 q k)) = _
    refine congrArg (V m c main_arg1) (funext fun a => Fin.ext ?_)
    have hk : k.val < 768 := k.isLt
    match a with
    | ⟨0, _⟩ => show win0_1.index t (0 : Fin 2) * 768 + 1 * q.val = win0_3.index t (1 : Fin 2) * 768 + 1 * q.val; omega
    | ⟨1, _⟩ => show win0_1.index t (1 : Fin 2) * 768 + 1 * k.val = k.val; omega
  have hb : iblk m c 2 t (ix2 (0 : Fin 1) q)
      = V m c main_v1 (ix2 (0 : Fin 1) (((cfg0.win 3).blk t).view.emb (ix2 p q) 1)) := by
    show V m c main_v1 (((cfg0.win 2).blk t).view.emb (ix2 (0 : Fin 1) q)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 768 + 1 * q.val = win0_3.index t (1 : Fin 2) * 768 + 1 * q.val; omega
  rw [hb]
  simp only [hx, hw]

/-- An index of the array is in point t's block iff each coordinate is in the block's range on its axis. -/
theorem mem_block (t : Fin cfg0.N) (i : S8192x768.Idx) :
    i ∈ ((cfg0.win 3).blk t).view.set ↔ ∀ a : Fin 2, win0_3.index t a * S2048x768.size a ≤ (i a).val ∧ (i a).val < win0_3.index t a * S2048x768.size a + S2048x768.size a := by
  show i ∈ ((View.whole main_v2).slice (win0_3.rect t)).set ↔ _
  rw [View.set_slice_whole, Rect.mem_set_unit]
  exact Iff.rfl

/-- The four blocks tile the array: row r lies in the block of point r / 2048. -/
theorem blocks_cover (i : S8192x768.Idx) :
    ∃ t : Fin cfg0.N, (cfg0.win 3).flush t = true ∧ i ∈ ((cfg0.win 3).blk t).view.set := by
  have hi0 : (i 0).val < 8192 := (i 0).isLt
  have hi1 : (i 1).val < 768 := (i 1).isLt
  have hN : cfg0.N = 4 := N_0
  let t : Fin cfg0.N := ⟨(i 0).val / 2048, by rw [hN]; omega⟩
  obtain ⟨-, -, -, -, -, -, e6, e7⟩ := index_facts t
  have e6' : win0_3.index t (0 : Fin 2) = (i 0).val / 2048 := e6
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 768 ≤ (i 1).val ∧ (i 1).val < win0_3.index t (1 : Fin 2) * 768 + 768; omega

/-- The output array after the region: the row-by-row layer of the arrays the region found. -/
theorem final_rows (c : Dev nD) :
    (dats m 0 c).arrAt 3 cfg0.N = Cert.Linear.rows (V m c main_v0) (V m c main_arg1) (V m c main_v1) :=
  (dats m 0 c).arrAt_eq_of_cover 3 _ (fun t _ => flushed_rows m c t) blocks_cover

end Cert.KernelIdeal.RowsValue

end
-- ==== Proof.KernelValue.lean ====
/-
  The kernel's result, token by token.

  Before the region the batch x is re-laid as 8192 rows and the bias b as one row; neither moves a word. The region
  leaves the row-by-row layer of those two and the weight in its output array (`final_rows`), and the one operation
  after it re-lays the rows as a batch. Re-laid, the row-by-row layer is the token-by-token layer
  (`Cert.Linear.asBatch_rows`): the program's result is `Cert.Linear.layer x W b`, and its arguments end as they began.
-/
import proofs.«125455_g2078764171543_cont_8to1_1018_13_alg».proof.Proof.KernelRows
import Idealize.ShloMosaic.Lib.StableHlo.Run

noncomputable section

namespace Cert.KernelIdeal.LayerValue

open Cert.KernelIdeal Cert.KernelIdeal.Gen Cert.KernelIdeal.RowsValue Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds the batch re-laid as rows. -/
theorem rows_of_batch (c : Dev nD) :
    V m c main_v0 = shapeCast S8192x768 (m ((c : Thread nD τ).loc main_arg0)) shapeCasts_S2x4096x768_S8192x768 := by
  show StableHlo.after hostOps0 (fun b => m (c, b)) (Proc.devRef .tc main_v0) = _
  after_results
  rfl

/-- The region finds the bias laid out as one row. -/
theorem row_of_bias (c : Dev nD) :
    V m c main_v1 = shapeCast S1x768 (m ((c : Thread nD τ).loc main_arg2)) shapeCasts_S768_S1x768 := by
  show StableHlo.after hostOps0 (fun b => m (c, b)) (Proc.devRef .tc main_v1) = _
  after_results
  rfl

/-- The one operation after the region re-lays the region's output array as a batch. -/
theorem batch_of_rows (c : Dev nD) :
    Pipeline.afterTail₀ cfgs (dats m) 0 (V0 m) [hostOps1] c main_v3
      = shapeCast S2x4096x768 ((dats m 0 c).arrAt 3 cfg0.N) shapeCasts_S8192x768_S2x4096x768 := by
  unfold Pipeline.afterTail₀
  show StableHlo.after hostOps1 _ (Proc.devRef .tc main_v3) = _
  after_results
  exact congrArg (fun y => shapeCast S2x4096x768 y shapeCasts_S8192x768_S2x4096x768)
    (Pipeline.withArrays_arr spec0 launch0.win.arr_inj c _ _ 3)

/-- The program's result is the token-by-token layer of its three arguments. -/
theorem result_layer (c : Dev nD) :
    Pipeline.afterTail₀ cfgs (dats m) 0 (V0 m) [hostOps1] c main_v3
      = Cert.Linear.layer (m ((c : Thread nD τ).loc main_arg0)) (m ((c : Thread nD τ).loc main_arg1)) (m ((c : Thread nD τ).loc main_arg2)) := by
  rw [batch_of_rows, final_rows, rows_of_batch, row_of_bias, V_main_arg1]
  exact Cert.Linear.asBatch_rows _ _ _ _ _ _

/-- Every weakly fair execution of the program ends with the result at the token-by-token layer and the arguments as launched. -/
theorem run : θ_run defs (onTc (τ := τ) (main (F := Ideal))) ⟨m, fun _ => 0, ρ⟩ fun r => ∀ c : Dev nD,
      r.2.mem ((c.tc : Thread nD τ).loc main_v3)
        = Cert.Linear.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_layer m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.LayerValue

end
-- ==== Proof.RefValue.lean ====
/-
  What the reference computes, entry by entry.

  The reference contracts the batch's last axis with the weight's last axis (einsum 'bsd,od->bso') and adds the bias
  broadcast along the last axis. Read at (a, n, o), the product is Σ_k x[a,n,k] · W[o,k] and the broadcast bias is b[o]:
  the token-by-token layer `Cert.Linear.layer`.
-/
import proofs.«125455_g2078764171543_cont_8to1_1018_13_alg».proof.Proof.Gen.ReferenceIdeal.Read
import proofs.«125455_g2078764171543_cont_8to1_1018_13_alg».proof.Proof.Linear

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand is read at (a, n, k). -/
theorem lidx_eq (a : Fin 2) (n : Fin 4096) (o k : Fin 768) : lidx_main_v0 (ix3 a n o) k = ix3 a n k :=
  funext fun d => match d with | ⟨0, _⟩ => rfl | ⟨1, _⟩ => rfl | ⟨2, _⟩ => rfl

/-- The right operand is read at (o, k). -/
theorem ridx_eq (a : Fin 2) (n : Fin 4096) (o k : Fin 768) : ridx_main_v0 (ix3 a n o) k = ix2 o k :=
  funext fun d => match d with | ⟨0, _⟩ => rfl | ⟨1, _⟩ => rfl

/-- The bias, broadcast twice, is read at o. -/
theorem bidx_eq (a : Fin 2) (n : Fin 4096) (o : Fin 768) : idx_main_v1 (idx_main_v2 (ix3 a n o)) = ix1 o :=
  funext fun d => match d with | ⟨0, _⟩ => rfl

/-- The reference's result is the token-by-token layer of its three arguments. -/
theorem result_eq (x : FVec Ideal ⟨3, ![2, 4096, 768]⟩ .f32) (W : FVec Ideal ⟨2, ![768, 768]⟩ .f32) (b : FVec Ideal ⟨1, ![768]⟩ .f32) :
    val_main_v3 (F := Ideal) x W b = Cert.Linear.layer x W b := by
  funext i
  obtain ⟨a, n, o, rfl⟩ : ∃ (a : Fin 2) (n : Fin 4096) (o : Fin 768), i = ix3 a n o := ⟨i 0, i 1, i 2, eq_ix3 i⟩
  rw [val_main_v3_apply, val_main_v0_apply, val_main_v2_apply, val_main_v1_apply]
  simp only [lidx_eq, ridx_eq, bidx_eq]
  rfl

end Cert.ReferenceIdeal.RefValue

end
-- ==== Proof.lean ====
/-
  A dense layer y = x · Wᵀ + b over a [2, 4096, 768] batch, computed two ways, agrees on the extended reals.

  The kernel re-lays the batch as 8192 rows, walks them in four blocks of 2048 rows — at each block the matrix unit
  multiplies the block's rows against the rows of the [768, 768] weight into a zero accumulator and the one-row bias is
  added down the block — and re-lays the rows as a batch. The reference contracts the batch's last axis with the weight's
  last axis in one product and adds the bias broadcast along the last axis. Entry (a, n, o) of either result is
      Σ_k x[a,n,k] · W[o,k] + b[o]
  (`Cert.Linear.layer`): on the kernel's side because a block's entry is that sum for row 4096·a + n, the four blocks
  tile the rows, and re-laying moves no word (Proof/KernelRows.lean, Proof/KernelValue.lean, Proof/Linear.lean); on the
  reference's side by reading the product and the two broadcasts at an index (Proof/RefValue.lean). The two sides are the
  same sum with the same summands in the same order, so no law of the extended reals is needed and the finiteness of the
  inputs is never used. The idealization rewrote nothing, so it is preserved trivially; each program's run leaves its
  arguments as launched.
-/
import proofs.«125455_g2078764171543_cont_8to1_1018_13_alg».proof.Defs
import proofs.«125455_g2078764171543_cont_8to1_1018_13_alg».proof.Proof.Gen.Kernel
import proofs.«125455_g2078764171543_cont_8to1_1018_13_alg».proof.Proof.Gen.Kernel.Skeleton
import proofs.«125455_g2078764171543_cont_8to1_1018_13_alg».proof.Proof.Gen.Kernel.Launch
import proofs.«125455_g2078764171543_cont_8to1_1018_13_alg».proof.Proof.Gen.Kernel.Points
import proofs.«125455_g2078764171543_cont_8to1_1018_13_alg».proof.Proof.Gen.Kernel.Frame
import proofs.«125455_g2078764171543_cont_8to1_1018_13_alg».proof.Proof.Gen.KernelIdeal
import proofs.«125455_g2078764171543_cont_8to1_1018_13_alg».proof.Proof.Gen.KernelIdeal.Skeleton
import proofs.«125455_g2078764171543_cont_8to1_1018_13_alg».proof.Proof.Gen.KernelIdeal.Launch
import proofs.«125455_g2078764171543_cont_8to1_1018_13_alg».proof.Proof.Gen.KernelIdeal.Points
import proofs.«125455_g2078764171543_cont_8to1_1018_13_alg».proof.Proof.Gen.KernelIdeal.Frame
import proofs.«125455_g2078764171543_cont_8to1_1018_13_alg».proof.Proof.Gen.ReferenceIdeal
import proofs.«125455_g2078764171543_cont_8to1_1018_13_alg».proof.Proof.Gen.Pre_finite_inputs
import proofs.«125455_g2078764171543_cont_8to1_1018_13_alg».proof.Proof.Gen.ReferenceIdeal.Run
import proofs.«125455_g2078764171543_cont_8to1_1018_13_alg».proof.Proof.Gen.ReferenceIdeal.Read
import proofs.«125455_g2078764171543_cont_8to1_1018_13_alg».proof.Proof.KernelValue
import proofs.«125455_g2078764171543_cont_8to1_1018_13_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the token-by-token layer of the arguments they share. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
